-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S600000x50 : Shape := ⟨2, ![600000, 50]⟩
abbrev S128x50 : Shape := ⟨2, ![128, 50]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S600000x50 : S_.BroadcastsInDim S600000x50 (![] : Fin 0 → Fin S600000x50.rank)
  reducesTo_S600000x50_S_d0_1 : S600000x50.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x600000 32) (main_arg2 : FVec F S600000 .f32) (main_arg3 : FVec F S600000x50 .f32) (main_arg4 : FVec F S128x50 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S600000x50 .f32 := Host.absf main_arg3
  let main_cst_2 : FVec F S_ .f32 := constant S_ .f32 0x7F800000#32
  let main_v10 : FVec F S600000x50 .f32 := broadcastInDim S600000x50 ![] bcast_S_S600000x50 main_cst_2
  let main_v11 : IVec S600000x50 1 := cmpf .olt main_v9 main_v10
  let main_c_3 : IVec S_ 1 := constantI S_ 1 1#1
  let main_v12 : IVec S_ 1 := (fun x v => Host.reduce IntOp.andi x v reducesTo_S600000x50_S_d0_1 h_S_) main_v11 main_c_3
  let main_v13 : IVec S_ 1 := andi main_v8 main_v12
  let main_v14 : FVec F S128x50 .f32 := Host.absf main_arg4
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S600000x50 : Shape := ⟨2, ![600000, 50]⟩
abbrev S128x50 : Shape := ⟨2, ![128, 50]⟩
abbrev S128 : Shape := ⟨1, ![128]⟩
abbrev S128x128 : Shape := ⟨2, ![128, 128]⟩
abbrev S1x600000 : Shape := ⟨2, ![1, 600000]⟩
abbrev S50x128 : Shape := ⟨2, ![50, 128]⟩
abbrev S5000x128 : Shape := ⟨2, ![5000, 128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S6000x50 : Shape := ⟨2, ![6000, 50]⟩
abbrev S6000x128 : Shape := ⟨2, ![6000, 128]⟩

abbrev nBuf : Space → Nat
  | .hbm => 58
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S600000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S128x128, .f32⟩
  | .hbm, ⟨18, _⟩ => ⟨S50x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S50000x128, .f32⟩
  | .hbm, ⟨23, _⟩ => ⟨S_, .f32⟩
  | .hbm, ⟨24, _⟩ => ⟨S600000, .f32⟩
  | .hbm, ⟨25, _⟩ => ⟨S600000, .f32⟩
  | .hbm, ⟨26, _⟩ => ⟨S_, .f32⟩
  | .hbm, ⟨27, _⟩ => ⟨S600000, .f32⟩
  | .hbm, ⟨28, _⟩ => ⟨S600000, .f32⟩
  | .hbm, ⟨29, _⟩ => ⟨S600000, .f32⟩
  | .hbm, ⟨30, _⟩ => ⟨S_, .f32⟩
  | .hbm, ⟨31, _⟩ => ⟨S600000, .f32⟩
  | .hbm, ⟨32, _⟩ => ⟨S600000, .f32⟩
  | .hbm, ⟨33, _⟩ => ⟨S_, .f32⟩
  | .hbm, ⟨34, _⟩ => ⟨S600000, .f32⟩
  | .hbm, ⟨35, _⟩ => ⟨S600000, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x1, .f32⟩
  | .hbm, ⟨46, _⟩ => ⟨S600000x128, .f32⟩
  | .hbm, ⟨47, _⟩ => ⟨S600000x128, .f32⟩
  | .hbm, ⟨48, _⟩ => ⟨S1x128, .f32⟩
  | .hbm, ⟨49, _⟩ => ⟨S1x128, .f32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S1x128, .f32⟩
  | .hbm, ⟨56, _⟩ => ⟨S1x128, .f32⟩
  | .hbm, ⟨57, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S6000x50, .f32⟩
  | .local _ .vmem, ⟨6, _⟩ => ⟨S6000x50, .f32⟩
  | .local _ .vmem, ⟨7, _⟩ => ⟨S6000x128, .f32⟩
  | .local _ .vmem, ⟨8, _⟩ => ⟨S6000x128, .f32⟩
  | .local _ .vmem, ⟨9, _⟩ => ⟨S50x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S6000x128, .f32⟩
  | .local _ .vmem, ⟨14, _⟩ => ⟨S6000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  transposes_S128x50_S50x128_1_0 : S128x50.Transposes [1, 0] S50x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  shapeCasts_S128_S1x128 : S128.ShapeCasts S1x128
  inb_S6000x50_S6000x50_0_0 : ∀ a, (![0, 0] : Fin 2 → Nat) a + S6000x50.size a ≤ S6000x50.size a
  h_S6000x50 : 0 < S6000x50.numel
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bcast_S_S50000x128 : S_.BroadcastsInDim S50000x128 (![] : Fin 0 → Fin S50000x128.rank)
  shapeCasts_S5000x128_S5000x128 : S5000x128.ShapeCasts S5000x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  dot_S6000x50_S50x128_S6000x128_1_0_0_1_n_n_wf : DotDims.WF S6000x50 S50x128 S6000x128 [1] [0] [0] [1] [] []
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x50.size a ≤ S600000x50.size a
  hwx1_0 : ∀ i : grid1.Coords, EltTy.bits .f32 = 32 ∨ (Rect.block (s := S600000x50) S6000x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .f32 = 32 ∨ (Rect.block (s := S600000x128) S6000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x128.size a ≤ S50x128.size a
  hwx1_2 : ∀ i : grid1.Coords, EltTy.bits .f32 = 32 ∨ (Rect.block (s := S50x128) S50x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6000x128.size a ≤ S600000x128.size a
  hwx1_6 : ∀ i : grid1.Coords, EltTy.bits .f32 = 32 ∨ (Rect.block (s := S600000x128) S6000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x50_S50x128_S6000x128_1_0_0_1_n_n : DotDims S6000x50 S50x128 S6000x128 where
  lhsContracting := [1]
  rhsContracting := [0]
  lhsNonContracting := [0]
  rhsNonContracting := [1]
  lhsBatch := []
  rhsBatch := []
  wf := dot_S6000x50_S50x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S6000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S50x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S6000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v9) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S600000x50 : Shape := ⟨2, ![600000, 50]⟩
abbrev S128x50 : Shape := ⟨2, ![128, 50]⟩
abbrev S128 : Shape := ⟨1, ![128]⟩
abbrev S128x128 : Shape := ⟨2, ![128, 128]⟩
abbrev S1x600000 : Shape := ⟨2, ![1, 600000]⟩
abbrev S_ : Shape := ⟨0, ![]⟩
abbrev S50x128 : Shape := ⟨2, ![50, 128]⟩
abbrev S600000x128 : Shape := ⟨2, ![600000, 128]⟩
abbrev S1x128 : Shape := ⟨2, ![1, 128]⟩
abbrev S600000x1 : Shape := ⟨2, ![600000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S600000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S128x128, .f32⟩
  | .hbm, ⟨18, _⟩ => ⟨S50000x128, .f32⟩
  | .hbm, ⟨19, _⟩ => ⟨S_, .f32⟩
  | .hbm, ⟨20, _⟩ => ⟨S600000, .f32⟩
  | .hbm, ⟨21, _⟩ => ⟨S600000, .f32⟩
  | .hbm, ⟨22, _⟩ => ⟨S_, .f32⟩
  | .hbm, ⟨23, _⟩ => ⟨S600000, .f32⟩
  | .hbm, ⟨24, _⟩ => ⟨S600000, .f32⟩
  | .hbm, ⟨25, _⟩ => ⟨S600000, .f32⟩
  | .hbm, ⟨26, _⟩ => ⟨S_, .f32⟩
  | .hbm, ⟨27, _⟩ => ⟨S600000, .f32⟩
  | .hbm, ⟨28, _⟩ => ⟨S600000, .f32⟩
  | .hbm, ⟨29, _⟩ => ⟨S_, .f32⟩
  | .hbm, ⟨30, _⟩ => ⟨S600000, .f32⟩
  | .hbm, ⟨31, _⟩ => ⟨S600000, .f32⟩
  | .hbm, ⟨32, _⟩ => ⟨S50x128, .f32⟩
  | .hbm, ⟨33, _⟩ => ⟨S600000x128, .f32⟩
  | .hbm, ⟨34, _⟩ => ⟨S1x128, .f32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S600000x128, .i1⟩
  | .hbm, ⟨43, _⟩ => ⟨S600000x128, .f32⟩
  | .hbm, ⟨44, _⟩ => ⟨S600000x128, .f32⟩
  | .hbm, ⟨45, _⟩ => ⟨S600000x128, .f32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S600000x128, .f32⟩
  | .hbm, ⟨53, _⟩ => ⟨S600000x128, .f32⟩
  | .hbm, ⟨54, _⟩ => ⟨S128x128, .f32⟩
  | .hbm, ⟨55, _⟩ => ⟨S600000x128, .f32⟩
  | .hbm, ⟨56, _⟩ => ⟨S1x128, .f32⟩
  | .hbm, ⟨57, _⟩ => ⟨S600000x128, .f32⟩
  | .hbm, ⟨58, _⟩ => ⟨S600000x128, .f32⟩
  | .hbm, ⟨59, _⟩ => ⟨S600000x1, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S600000x128, .f32⟩
  | .hbm, ⟨70, _⟩ => ⟨S600000x128, .f32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .i1⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S128x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c : Ref sig .tc := ⟨.hbm, 60, rfl⟩
abbrev main_v29 : Ref sig .tc := ⟨.hbm, 61, rfl⟩
abbrev main_v30 : Ref sig .tc := ⟨.hbm, 62, rfl⟩
abbrev main_c_4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_v48 : Ref sig .tc := ⟨.hbm, 95, rfl⟩
abbrev main_cst_6 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S_S600000 : S_.BroadcastsInDim S600000 (![] : Fin 0 → Fin S600000.rank)
  transposes_S128x50_S50x128_1_0 : S128x50.Transposes [1, 0] S50x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S600000x50_S50x128_S600000x128_1_0_0_1_n_n_wf : DotDims.WF S600000x50 S50x128 S600000x128 [1] [0] [0] [1] [] []
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x50_S50x128_S600000x128_1_0_0_1_n_n : DotDims S600000x50 S50x128 S600000x128 where
  lhsContracting := [1]
  rhsContracting := [0]
  lhsNonContracting := [0]
  rhsNonContracting := [1]
  lhsBatch := []
  rhsBatch := []
  wf := dot_S600000x50_S50x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelDots.lean ====
/-
  The three block products of the kernels read at an entry: a [rows, K] block times a [K, 128] weight into a zero
  accumulator is, at row `p` and column `q`, the sum over `k` of the block's entry (p, k) times the weight's (k, q) —
  on the extended reals, where the product has no rounding and no order.
-/
import proofs.«175740_j49838800503616_1_alg».proof.Proof.Gen.KernelIdeal
import Idealize.ShloMosaic.PureOps.Ideal.Laws
import Idealize.ShloMosaic.Lib.ValueIdx

noncomputable section

namespace Cert.KernelIdeal.Dots

open Cert.KernelIdeal Cert.KernelIdeal.Gen Idealize.ShloMosaic Idealize.ShloMosaic.ValueIdx

theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- The block product into the zero accumulator, at row `p` and column `q`: the sum over the shared axis. -/
theorem node_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_node_0 _ _).trans hk
    | ⟨1, _⟩ => exact rhs_node_1 _ _)
  rw [el, er]

theorem lhs_edgeIn_0 (i : S6000x128.Idx) (q : dot_S6000x50_S50x128_S6000x128_1_0_0_1_n_n.contr.Idx) :
    (dot_S6000x50_S50x128_S6000x128_1_0_0_1_n_n.lhsIdx i q 0).val = (i 0).val := by
  unfold DotDims.lhsIdx
  rw [dif_neg (show ¬(0 : Fin S6000x50.rank) ∈ dot_S6000x50_S50x128_S6000x128_1_0_0_1_n_n.lhsBatch by decide), dif_pos (show (0 : Fin S6000x50.rank) ∈ dot_S6000x50_S50x128_S6000x128_1_0_0_1_n_n.lhsNonContracting by decide)]
  rfl
theorem lhs_edgeIn_1 (i : S6000x128.Idx) (q : dot_S6000x50_S50x128_S6000x128_1_0_0_1_n_n.contr.Idx) :
    (dot_S6000x50_S50x128_S6000x128_1_0_0_1_n_n.lhsIdx i q 1).val = (q ⟨0, by decide⟩).val :=
  dot_S6000x50_S50x128_S6000x128_1_0_0_1_n_n.lhsIdx_val_of_single rfl i q
theorem rhs_edgeIn_0 (i : S6000x128.Idx) (q : dot_S6000x50_S50x128_S6000x128_1_0_0_1_n_n.contr.Idx) :
    (dot_S6000x50_S50x128_S6000x128_1_0_0_1_n_n.rhsIdx i q 0).val = (q ⟨0, by decide⟩).val :=
  dot_S6000x50_S50x128_S6000x128_1_0_0_1_n_n.rhsIdx_val_of_single rfl i q
theorem rhs_edgeIn_1 (i : S6000x128.Idx) (q : dot_S6000x50_S50x128_S6000x128_1_0_0_1_n_n.contr.Idx) :
    (dot_S6000x50_S50x128_S6000x128_1_0_0_1_n_n.rhsIdx i q 1).val = (i 1).val := by
  unfold DotDims.rhsIdx
  rw [dif_neg (show ¬(1 : Fin S50x128.rank) ∈ dot_S6000x50_S50x128_S6000x128_1_0_0_1_n_n.rhsBatch by decide), dif_pos (show (1 : Fin S50x128.rank) ∈ dot_S6000x50_S50x128_S6000x128_1_0_0_1_n_n.rhsNonContracting by decide)]
  rfl
/-- The block product into the zero accumulator, at row `p` and column `q`: the sum over the shared axis. -/
theorem edgeIn_apply {φ₁ φ₂ : FTy} (x : FVec Ideal S6000x50 φ₁) (w : FVec Ideal S50x128 φ₂) (p : Fin 6000) (q : Fin 128) :
    matmul dot_S6000x50_S50x128_S6000x128_1_0_0_1_n_n none x w (constant S6000x128 .f32 0x00000000#32) (ix2 p q)
      = ∑ k : Fin 50, x (ix2 p k) * w (ix2 k q) := by
  simp only [matmul]
  rw [Ideal.matmul_constant_zero_apply, ← Equiv.sum_comp (ValueIdx.contrEquiv1 dot_S6000x50_S50x128_S6000x128_1_0_0_1_n_n 50 rfl rfl).symm]
  refine Finset.sum_congr rfl fun k _ => ?_
  have hk := ValueIdx.contrEquiv1_symm_val dot_S6000x50_S50x128_S6000x128_1_0_0_1_n_n 50 rfl rfl k
  have el : dot_S6000x50_S50x128_S6000x128_1_0_0_1_n_n.lhsIdx (ix2 p q) ((ValueIdx.contrEquiv1 dot_S6000x50_S50x128_S6000x128_1_0_0_1_n_n 50 rfl rfl).symm k) = ix2 p k := funext fun a => Fin.ext (by
    match a with
    | ⟨0, _⟩ => exact lhs_edgeIn_0 _ _
    | ⟨1, _⟩ => exact (lhs_edgeIn_1 _ _).trans hk)
  have er : dot_S6000x50_S50x128_S6000x128_1_0_0_1_n_n.rhsIdx (ix2 p q) ((ValueIdx.contrEquiv1 dot_S6000x50_S50x128_S6000x128_1_0_0_1_n_n 50 rfl rfl).symm k) = ix2 k q := funext fun a => Fin.ext (by
    match a with
    | ⟨0, _⟩ => exact (rhs_edgeIn_0 _ _).trans hk
    | ⟨1, _⟩ => exact rhs_edgeIn_1 _ _)
  rw [el, er]

theorem lhs_edgeHid_0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem lhs_edgeHid_1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_edgeHid_0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_edgeHid_1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl
/-- The block product into the zero accumulator, at row `p` and column `q`: the sum over the shared axis. -/
theorem edgeHid_apply {φ₁ φ₂ : FTy} (x : FVec Ideal S6000x128 φ₁) (w : FVec Ideal S128x128 φ₂) (p : Fin 6000) (q : Fin 128) :
    matmul dot_S6000x128_S128x128_S6000x128_1_0_0_1_n_n none x w (constant S6000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S6000x128_S128x128_S6000x128_1_0_0_1_n_n 128 rfl rfl).symm]
  refine Finset.sum_congr rfl fun k _ => ?_
  have hk := ValueIdx.contrEquiv1_symm_val dot_S6000x128_S128x128_S6000x128_1_0_0_1_n_n 128 rfl rfl k
  have el : dot_S6000x128_S128x128_S6000x128_1_0_0_1_n_n.lhsIdx (ix2 p q) ((ValueIdx.contrEquiv1 dot_S6000x128_S128x128_S6000x128_1_0_0_1_n_n 128 rfl rfl).symm k) = ix2 p k := funext fun a => Fin.ext (by
    match a with
    | ⟨0, _⟩ => exact lhs_edgeHid_0 _ _
    | ⟨1, _⟩ => exact (lhs_edgeHid_1 _ _).trans hk)
  have er : dot_S6000x128_S128x128_S6000x128_1_0_0_1_n_n.rhsIdx (ix2 p q) ((ValueIdx.contrEquiv1 dot_S6000x128_S128x128_S6000x128_1_0_0_1_n_n 128 rfl rfl).symm k) = ix2 k q := funext fun a => Fin.ext (by
    match a with
    | ⟨0, _⟩ => exact (rhs_edgeHid_0 _ _).trans hk
    | ⟨1, _⟩ => exact rhs_edgeHid_1 _ _)
  rw [el, er]

end Cert.KernelIdeal.Dots

end
-- ==== Proof.Spec.lean ====
/-
  The mathematics of the continuous-filter convolution block, on the extended reals, with no program in sight.

  Nodes carry 128 features, edges 50 radial features and one length. With `h1 = h · W1ᵀ` (a row times a matrix is a sum over
  the shared axis), the filter of edge `e` is `Wf[e] = ssp(ea[e] · W0ᵀ + b0) · W2ᵀ + b2`, where `ssp` is the shifted softplus
  `max(y, 0) + log1p(exp(-|y|)) - ln 2`, the message of edge `e` is `c[e] · (Wf[e] · g[e])` with `g[e]` a gathered row of `h1`
  and `c[e]` the cosine cutoff of the edge's length, the messages are summed into their target nodes, and the result is
  `ssp((h1 + agg) · L2ᵀ + l2) · Lᵀ + l`.  The kernel multiplies the cutoff into the gathered row first,
  `Wf[e] · (c[e] · g[e])`: the product of extended reals is commutative and associative, so the two agree at every
  extended real, the infinities included (`msg_comm`).
-/
import Idealize.ShloMosaic.PureOps.Ideal
import Idealize.ShloMosaic.PureOps.Ideal.Laws
import Idealize.ShloMosaic.Lib.ValueIdx

noncomputable section

namespace CFConv

open Idealize.ShloMosaic Idealize.ShloMosaic.ValueIdx

/-- `ln 2` as both programs write it: one f32 word, never evaluated. -/
abbrev ln2 : EReal := Ideal.ofBits .f32 0x3F317218#32

/-- The shifted softplus of one extended real: `max(y, 0) + log1p(exp(-|y - 0|)) - ln 2`, with `|a| = max a (-a)`. -/
def ssp (y : EReal) : EReal := (max y 0 + Ideal.log1p (Ideal.exp (-(max (y - 0) (-(y - 0)))))) - ln2

/-- The comparison `a ≠ a` (the source's NaN test) is false at every extended real, in either spelling. -/
theorem cmp_one_self (a : EReal) : Ideal.cmp .one a a = 0#1 := by simp [Ideal.cmp]
theorem cmp_une_self (a : EReal) : Ideal.cmp .une a a = 0#1 := by simp [Ideal.cmp]

/-- The kernel's element: the select on the NaN test takes its second branch, and `0 - a` is `-a`. -/
theorem ssp_kernel (y : Ideal .f32) :
    FloatOps.subf (Scalar.select (FloatOps.cmpf .one (FloatOps.subf y (Scalar.ofBits .f32 0x00000000#32)) (FloatOps.subf y (Scalar.ofBits .f32 0x00000000#32)))
        (FloatOps.addf y (Scalar.ofBits .f32 0x00000000#32))
        (FloatOps.addf (FloatOps.maximumf y (Scalar.ofBits .f32 0x00000000#32))
          (FloatOps.log1p (FloatOps.exp (FloatOps.subf (Scalar.ofBits .f32 0x00000000#32) (FloatOps.absf (FloatOps.subf y (Scalar.ofBits .f32 0x00000000#32))))))))
      (Scalar.ofBits .f32 0x3F317218#32) = ssp y := by
  have hs : ∀ b : BitVec (FTy.f32).bits, Scalar.ofBits (F := Ideal) .f32 b = Ideal.ofBits .f32 b := fun _ => rfl
  simp only [hs, Ideal.cmpf_def, cmp_one_self, select_zero, Ideal.absf_def, Ideal.subf_def, Ideal.addf_def, Ideal.maximumf_def,
    Ideal.log1p_def, Ideal.exp_def, Ideal.ofBits_zero_f32]
  unfold ssp
  rw [sub_eq_add_neg (0 : EReal), zero_add]

/-- The reference's element: the same with `-a` written as a negation. -/
theorem ssp_host (y : Ideal .f32) :
    FloatOps.subf (Scalar.select (FloatOps.cmpf .une (FloatOps.subf y (Ideal.ofBits .f32 0x00000000#32)) (FloatOps.subf y (Ideal.ofBits .f32 0x00000000#32)))
        (FloatOps.addf y (Ideal.ofBits .f32 0x00000000#32))
        (FloatOps.addf (FloatOps.maximumf y (Ideal.ofBits .f32 0x00000000#32))
          (FloatOps.hostUnary .log1p (FloatOps.hostUnary .exp (FloatOps.hostNegf (FloatOps.hostAbsf (FloatOps.subf y (Ideal.ofBits .f32 0x00000000#32))))))))
      (Ideal.ofBits .f32 0x3F317218#32) = ssp y := by
  simp only [Ideal.cmpf_def, cmp_une_self, select_zero, Ideal.hostAbsf_def, Ideal.hostNegf_def, Ideal.negf_def, Ideal.absf_def, Ideal.subf_def,
    Ideal.addf_def, Ideal.maximumf_def, Ideal.hostUnary_log1p_def, Ideal.hostUnary_exp_def, Ideal.ofBits_zero_f32]
  rfl

/-! ## The three stages as whole-array functions -/

abbrev SN  : Shape := ⟨2, ![50000, 128]⟩
abbrev SE  : Shape := ⟨2, ![600000, 128]⟩
abbrev SEA : Shape := ⟨2, ![600000, 50]⟩
abbrev SW  : Shape := ⟨2, ![128, 128]⟩
abbrev SW0 : Shape := ⟨2, ![50, 128]⟩
abbrev SB  : Shape := ⟨1, ![128]⟩

abbrev SR  : Shape := ⟨2, ![1, 128]⟩

/-- A bias kept as a [1, 128] row, read as the vector of its 128 entries. -/
def rowVec (r : SR.Idx → EReal) : SB.Idx → EReal := fun u => r (ix2 (0 : Fin 1) (⟨(u 0).val, (u 0).isLt⟩ : Fin 128))

theorem rowVec_apply (r : SR.Idx → EReal) (k : Fin 128) : rowVec r (ix1 k) = r (ix2 (0 : Fin 1) k) := rfl

/-- A node index's row and column. -/
abbrev rowN (i : SN.Idx) : Fin 50000 := ⟨(i 0).val, (i 0).isLt⟩
abbrev colN (i : SN.Idx) : Fin 128 := ⟨(i 1).val, (i 1).isLt⟩
/-- An edge index's row and column. -/
abbrev rowE (i : SE.Idx) : Fin 600000 := ⟨(i 0).val, (i 0).isLt⟩
abbrev colE (i : SE.Idx) : Fin 128 := ⟨(i 1).val, (i 1).isLt⟩

/-- `X · Wt`: entry (n, j) is the sum over `k` of `X[n, k] · Wt[k, j]`. -/
def lin (X : SN.Idx → EReal) (Wt : SW.Idx → EReal) : SN.Idx → EReal :=
  fun i => ∑ k : Fin 128, X (ix2 (rowN i) k) * Wt (ix2 k (colN i))

/-- The filter of every edge: `ssp(EA · W0t + b0) · W2t + b2`, entry (e, j). -/
def filt (EA : SEA.Idx → EReal) (W0t : SW0.Idx → EReal) (b0 : SB.Idx → EReal) (W2t : SW.Idx → EReal) (b2 : SB.Idx → EReal) :
    SE.Idx → EReal :=
  fun i => (∑ k : Fin 128, ssp ((∑ g : Fin 50, EA (ix2 (rowE i) g) * W0t (ix2 g k)) + b0 (ix1 k)) * W2t (ix2 k (colE i))) + b2 (ix1 (colE i))

/-- The block's tail: `ssp((H1 + AGG) · L2t + l2) · Lt + l`, entry (n, j). -/
def tail (H1 AGG : SN.Idx → EReal) (L2t : SW.Idx → EReal) (l2 : SB.Idx → EReal) (Lt : SW.Idx → EReal) (l : SB.Idx → EReal) :
    SN.Idx → EReal :=
  fun i => (∑ k : Fin 128, ssp ((∑ g : Fin 128, (H1 (ix2 (rowN i) g) + AGG (ix2 (rowN i) g)) * L2t (ix2 g k)) + l2 (ix1 k)) * Lt (ix2 k (colN i))) + l (ix1 (colN i))

/-- The one law between the two programs: the cutoff may be multiplied into the gathered row before the filter or
    after it. Multiplication on the extended reals is commutative and associative, so nothing need be finite. -/
theorem msg_comm (w c g : EReal) : w * (c * g) = c * (w * g) := mul_left_comm w c g

end CFConv

end
-- ==== Proof.KernelLin.lean ====
/-
  The first kernel, `h1 = h · W1ᵀ`, as one whole-array function of what the region finds in its two input arrays.
  Grid point `t` reads rows `5000 t … 5000 t + 4999` of the node features and the whole [128, 128] weight, and writes
  back the same rows of the product; the ten row blocks tile the 50000 rows, so the array after the region is `lin`.
-/
import proofs.«175740_j49838800503616_1_alg».proof.Proof.Gen.KernelIdeal.Frame
import proofs.«175740_j49838800503616_1_alg».proof.Proof.KernelDots
import proofs.«175740_j49838800503616_1_alg».proof.Proof.Spec
import Idealize.ShloMosaic.Lib.Pipeline.Value

set_option maxRecDepth 16384

noncomputable section

namespace Cert.KernelIdeal.Lin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of its block: the casts to bf16 are the identity on the extended
    reals, so it is the row of the block times the column of the weight. -/
theorem pay_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  rw [shapeCast_self]
  exact Dots.node_apply _ _ p q

/-- One point of the grid against the whole-array function: a block whose rows are rows `5000 tv + p` of `X`, times the
    weight, at the block's entry `y`, is `lin X Wt` at the array index that entry lands on. -/
theorem point (X : CFConv.SN.Idx → EReal) (Wt : CFConv.SW.Idx → EReal) (x : Vec Ideal S5000x128 .f32) (w : Vec Ideal S128x128 .f32)
    (y : S5000x128.Idx) (i : CFConv.SN.Idx) (tv : Nat)
    (hx : ∀ (p : Fin 5000) (k : Fin 128) (i' : CFConv.SN.Idx), (i' 0).val = tv * 5000 + p.val → (i' 1).val = k.val → x (ix2 p k) = X i')
    (hw : ∀ u, w u = Wt u) (hi0 : (i 0).val = tv * 5000 + (y 0).val) (hi1 : (i 1).val = (y 1).val) :
    k0_pay1 x w y = CFConv.lin X Wt i := by
  obtain ⟨p, q, rfl⟩ : ∃ (p : Fin 5000) (q : Fin 128), y = ix2 p q := ⟨y 0, y 1, eq_ix2 y⟩
  rw [pay_apply]
  unfold CFConv.lin
  refine Finset.sum_congr rfl fun k _ => ?_
  rw [hx p k (ix2 (CFConv.rowN i) k) hi0 rfl, hw]
  exact congrArg (fun j => X _ * Wt (ix2 k j)) (Fin.ext hi1.symm)

/-- The printed index maps over the grid: the row blocks move with the point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `lin` of the two arrays as the region finds them. -/
theorem flushed_eq (c : Dev nD) (t : Fin cfg0.N) :
    (dat0 V c).flushed 2 t = ((cfg0.win 2).blk t).view.read (Elt Ideal) (CFConv.lin (V c main_arg0) (V c main_v4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = CFConv.lin (V c main_arg0) (V c main_v4) (((cfg0.win 2).blk t).view.emb j)
  refine point (V c main_arg0) (V c main_v4) (iblk0 V c 0 t) (iblk0 V c 1 t) j (((cfg0.win 2).blk t).view.emb j) t.val ?_ ?_ ?_ ?_
  · intro p k i' h0 h1
    show V c main_arg0 (((cfg0.win 0).blk t).view.emb (ix2 p k)) = V c main_arg0 i'
    refine congrArg (V c main_arg0) (funext fun a => Fin.ext ?_)
    match a with
    | ⟨0, _⟩ => show win0_0.index t (0 : Fin 2) * 5000 + 1 * p.val = (i' 0).val; omega
    | ⟨1, _⟩ => show win0_0.index t (1 : Fin 2) * 128 + 1 * k.val = (i' 1).val; omega
  · intro u
    show V c main_v4 (((cfg0.win 1).blk t).view.emb u) = V c main_v4 u
    refine congrArg (V c main_v4) (funext fun a => Fin.ext ?_)
    match a with
    | ⟨0, _⟩ => show win0_1.index t (0 : Fin 2) * 128 + 1 * (u 0).val = (u 0).val; omega
    | ⟨1, _⟩ => show win0_1.index t (1 : Fin 2) * 128 + 1 * (u 1).val = (u 1).val; omega
  · show win0_2.index t (0 : Fin 2) * 5000 + 1 * (j 0).val = t.val * 5000 + (j 0).val; omega
  · show win0_2.index t (1 : Fin 2) * 128 + 1 * (j 1).val = (j 1).val; omega

/-- An array index lies in point `t`'s block iff each coordinate lies in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v9).slice (win0_2.rect t)).set ↔ _
  rw [View.set_slice_whole, Rect.mem_set_unit]
  exact Iff.rfl

/-- The array after the region: the ten row blocks cover it, row `r` by point `r / 5000`. -/
theorem final (c : Dev nD) : (dat0 V c).arrAt 2 cfg0.N = CFConv.lin (V c main_arg0) (V c main_v4) :=
  (dat0 V c).arrAt_eq_of_cover 2 _ (fun t _ => flushed_eq V c t) fun i => by
    have hi0 : (i 0).val < 50000 := (i 0).isLt
    have hi1 : (i 1).val < 128 := (i 1).isLt
    have hN : cfg0.N = 10 := N_0
    refine ⟨⟨(i 0).val / 5000, by rw [hN]; omega⟩, flush0_2 _, ?_⟩
    rw [mem_blk]
    obtain ⟨e0, e1, e2, e3, e4, e5⟩ := idx_facts ⟨(i 0).val / 5000, by rw [hN]; omega⟩
    intro a
    match a with
    | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
    | ⟨1, _⟩ => show win0_2.index _ (1 : Fin 2) * 128 ≤ (i 1).val ∧ (i 1).val < win0_2.index _ (1 : Fin 2) * 128 + 128; rw [e5]; omega

end Cert.KernelIdeal.Lin

end
-- ==== Proof.KernelEdge.lean ====
/-
  The second kernel, the edge filter and message, as one whole-array function of what the region finds in its six input
  arrays. Grid point `t` reads rows `6000 t … 6000 t + 5999` of the edge features and of the scaled gathered rows, and
  the four small parameter arrays whole; at row `p`, column `q` of its block it stores
  `(Σ_k ssp(Σ_g ea[p, g] · W0t[g, k] + b0[k]) · W2t[k, q] + b2[q]) · hs[p, q]`.
  The hundred row blocks tile the 600000 edges, so the array after the region is the filter times the scaled rows.
-/
import proofs.«175740_j49838800503616_1_alg».proof.Proof.Gen.KernelIdeal.Frame
import proofs.«175740_j49838800503616_1_alg».proof.Proof.KernelDots
import proofs.«175740_j49838800503616_1_alg».proof.Proof.Spec
import Idealize.ShloMosaic.Lib.Pipeline.Value

set_option maxRecDepth 16384

noncomputable section

namespace Cert.KernelIdeal.Edge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A [1, 128] row broadcast down the block's rows reads the row's entry of the column. -/
theorem bcastRow_apply (b : Vec Ideal S1x128 .f32) (p : Fin 6000) (q : Fin 128) :
    broadcastTo S6000x128 b broadcasts_S1x128_S6000x128 (ix2 p q) = b (ix2 (0 : Fin 1) q) :=
  broadcastTo_apply b broadcasts_S1x128_S6000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's stored value at row `p`, column `q` of its block. -/
theorem pay_apply (ea : Vec Ideal S6000x50 .f32) (w0 : Vec Ideal S50x128 .f32) (b0 : Vec Ideal S1x128 .f32)
    (w2 : Vec Ideal S128x128 .f32) (b2 : Vec Ideal S1x128 .f32) (hs : Vec Ideal S6000x128 .f32) (p : Fin 6000) (q : Fin 128) :
    k1_pay1 ea w0 b0 w2 b2 hs (ix2 p q)
      = ((∑ k : Fin 128, CFConv.ssp ((∑ g : Fin 50, ea (ix2 p g) * w0 (ix2 g k)) + b0 (ix2 (0 : Fin 1) k)) * w2 (ix2 k q)) + b2 (ix2 (0 : Fin 1) q)) * hs (ix2 p q) := by
  unfold k1_pay1
  simp only [shapeCast_self]
  rw [mulf_apply, addf_apply, Dots.edgeHid_apply, bcastRow_apply]
  refine congrArg (· * hs (ix2 p q)) (congrArg (· + b2 (ix2 (0 : Fin 1) q)) (Finset.sum_congr rfl fun k _ => congrArg (· * w2 (ix2 k q)) ?_))
  refine (CFConv.ssp_kernel (FloatOps.addf (matmul dot_S6000x50_S50x128_S6000x128_1_0_0_1_n_n none (truncf .bf16 ea bitsLt_bf16_f32) (truncf .bf16 w0 bitsLt_bf16_f32) (constant S6000x128 .f32 0x00000000#32) (ix2 p k)) (broadcastTo S6000x128 b0 broadcasts_S1x128_S6000x128 (ix2 p k)))).trans ?_
  refine congrArg CFConv.ssp ?_
  show matmul (F := Ideal) dot_S6000x50_S50x128_S6000x128_1_0_0_1_n_n none (truncf (F := Ideal) .bf16 ea bitsLt_bf16_f32) (truncf (F := Ideal) .bf16 w0 bitsLt_bf16_f32) (constant (F := Ideal) S6000x128 .f32 0x00000000#32) (ix2 p k) + broadcastTo S6000x128 b0 broadcasts_S1x128_S6000x128 (ix2 p k) = _
  rw [Dots.edgeIn_apply, bcastRow_apply]
  rfl

/-- One point of the grid against the whole-array function. -/
theorem point (EA : CFConv.SEA.Idx → EReal) (W0t : CFConv.SW0.Idx → EReal) (B0 : CFConv.SR.Idx → EReal) (W2t : CFConv.SW.Idx → EReal)
    (B2 : CFConv.SR.Idx → EReal) (HS : CFConv.SE.Idx → EReal)
    (ea : Vec Ideal S6000x50 .f32) (w0 : Vec Ideal S50x128 .f32) (b0 : Vec Ideal S1x128 .f32)
    (w2 : Vec Ideal S128x128 .f32) (b2 : Vec Ideal S1x128 .f32) (hs : Vec Ideal S6000x128 .f32)
    (y : S6000x128.Idx) (i : CFConv.SE.Idx) (tv : Nat)
    (hea : ∀ (p : Fin 6000) (g : Fin 50) (i' : CFConv.SEA.Idx), (i' 0).val = tv * 6000 + p.val → (i' 1).val = g.val → ea (ix2 p g) = EA i')
    (hhs : ∀ (p : Fin 6000) (q : Fin 128) (i' : CFConv.SE.Idx), (i' 0).val = tv * 6000 + p.val → (i' 1).val = q.val → hs (ix2 p q) = HS i')
    (hw0 : ∀ u, w0 u = W0t u) (hb0 : ∀ u, b0 u = B0 u) (hw2 : ∀ u, w2 u = W2t u) (hb2 : ∀ u, b2 u = B2 u)
    (hi0 : (i 0).val = tv * 6000 + (y 0).val) (hi1 : (i 1).val = (y 1).val) :
    k1_pay1 ea w0 b0 w2 b2 hs y = CFConv.filt EA W0t (CFConv.rowVec B0) W2t (CFConv.rowVec B2) i * HS i := by
  obtain ⟨p, q, rfl⟩ : ∃ (p : Fin 6000) (q : Fin 128), y = ix2 p q := ⟨y 0, y 1, eq_ix2 y⟩
  have hq : CFConv.colE i = q := Fin.ext hi1
  rw [pay_apply, hhs p q i hi0 hi1]
  refine congrArg (· * HS i) ?_
  unfold CFConv.filt
  rw [hq, CFConv.rowVec_apply, hb2]
  refine congrArg (· + B2 (ix2 (0 : Fin 1) q)) (Finset.sum_congr rfl fun k _ => ?_)
  rw [hw2, CFConv.rowVec_apply, hb0]
  refine congrArg (fun s => CFConv.ssp (s + B0 (ix2 (0 : Fin 1) k)) * W2t (ix2 k q)) (Finset.sum_congr rfl fun g _ => ?_)
  rw [hea p g (ix2 (CFConv.rowE i) g) hi0 rfl, hw0]

/-- The printed index maps over the grid: the two row-blocked inputs and the output move with the point, the four
    parameter arrays stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the filter times the scaled rows, of the arrays as the region finds them. -/
theorem flushed_eq (c : Dev nD) (t : Fin cfg1.N) :
    (dat1 V c).flushed 6 t = ((cfg1.win 6).blk t).view.read (Elt Ideal)
      (fun i => CFConv.filt (V c main_arg3) (V c main_v5) (CFConv.rowVec (V c main_v29)) (V c main_v6) (CFConv.rowVec (V c main_v30)) i * (V c main_v28 : CFConv.SE.Idx → EReal) i) := by
  show (cfg1.win 6).cut (grid1.coords t) ((dat1 V c).after 6 t) = _
  rw [after1_6]
  unfold out1_6
  rw [View.canon_unit_zero hz]
  simp only [View.ld_unit_zero (S := S6000x50) hz, View.ld_unit_zero (S := S6000x128) hz, View.ld_unit_zero (S := S50x128) hz,
    View.ld_unit_zero (S := S1x128) hz, View.ld_unit_zero (S := S128x128) hz]
  obtain ⟨e00, e01, e10, e11, e20, e21, e30, e31, e40, e41, e50, e51, e60, e61⟩ := idx_facts t
  funext j
  show k1_pay1 (iblk1 V c 0 t) (iblk1 V c 2 t) (iblk1 V c 3 t) (iblk1 V c 4 t) (iblk1 V c 5 t) (iblk1 V c 1 t) j
    = CFConv.filt (V c main_arg3) (V c main_v5) (CFConv.rowVec (V c main_v29)) (V c main_v6) (CFConv.rowVec (V c main_v30)) (((cfg1.win 6).blk t).view.emb j)
      * (V c main_v28 : CFConv.SE.Idx → EReal) (((cfg1.win 6).blk t).view.emb j)
  refine point (V c main_arg3) (V c main_v5) (V c main_v29) (V c main_v6) (V c main_v30) (V c main_v28)
    (iblk1 V c 0 t) (iblk1 V c 2 t) (iblk1 V c 3 t) (iblk1 V c 4 t) (iblk1 V c 5 t) (iblk1 V c 1 t) j (((cfg1.win 6).blk t).view.emb j) t.val ?_ ?_ ?_ ?_ ?_ ?_ ?_ ?_
  · intro p g i' h0 h1
    show V c main_arg3 (((cfg1.win 0).blk t).view.emb (ix2 p g)) = V c main_arg3 i'
    refine congrArg (V c main_arg3) (funext fun a => Fin.ext ?_)
    match a with
    | ⟨0, _⟩ => show win1_0.index t (0 : Fin 2) * 6000 + 1 * p.val = (i' 0).val; omega
    | ⟨1, _⟩ => show win1_0.index t (1 : Fin 2) * 50 + 1 * g.val = (i' 1).val; omega
  · intro p q i' h0 h1
    show V c main_v28 (((cfg1.win 1).blk t).view.emb (ix2 p q)) = V c main_v28 i'
    refine congrArg (V c main_v28) (funext fun a => Fin.ext ?_)
    match a with
    | ⟨0, _⟩ => show win1_1.index t (0 : Fin 2) * 6000 + 1 * p.val = (i' 0).val; omega
    | ⟨1, _⟩ => show win1_1.index t (1 : Fin 2) * 128 + 1 * q.val = (i' 1).val; omega
  · intro u
    show V c main_v5 (((cfg1.win 2).blk t).view.emb u) = V c main_v5 u
    refine congrArg (V c main_v5) (funext fun a => Fin.ext ?_)
    match a with
    | ⟨0, _⟩ => show win1_2.index t (0 : Fin 2) * 50 + 1 * (u 0).val = (u 0).val; omega
    | ⟨1, _⟩ => show win1_2.index t (1 : Fin 2) * 128 + 1 * (u 1).val = (u 1).val; omega
  · intro u
    show V c main_v29 (((cfg1.win 3).blk t).view.emb u) = V c main_v29 u
    refine congrArg (V c main_v29) (funext fun a => Fin.ext ?_)
    match a with
    | ⟨0, _⟩ => show win1_3.index t (0 : Fin 2) * 1 + 1 * (u 0).val = (u 0).val; omega
    | ⟨1, _⟩ => show win1_3.index t (1 : Fin 2) * 128 + 1 * (u 1).val = (u 1).val; omega
  · intro u
    show V c main_v6 (((cfg1.win 4).blk t).view.emb u) = V c main_v6 u
    refine congrArg (V c main_v6) (funext fun a => Fin.ext ?_)
    match a with
    | ⟨0, _⟩ => show win1_4.index t (0 : Fin 2) * 128 + 1 * (u 0).val = (u 0).val; omega
    | ⟨1, _⟩ => show win1_4.index t (1 : Fin 2) * 128 + 1 * (u 1).val = (u 1).val; omega
  · intro u
    show V c main_v30 (((cfg1.win 5).blk t).view.emb u) = V c main_v30 u
    refine congrArg (V c main_v30) (funext fun a => Fin.ext ?_)
    match a with
    | ⟨0, _⟩ => show win1_5.index t (0 : Fin 2) * 1 + 1 * (u 0).val = (u 0).val; omega
    | ⟨1, _⟩ => show win1_5.index t (1 : Fin 2) * 128 + 1 * (u 1).val = (u 1).val; omega
  · show win1_6.index t (0 : Fin 2) * 6000 + 1 * (j 0).val = t.val * 6000 + (j 0).val; omega
  · show win1_6.index t (1 : Fin 2) * 128 + 1 * (j 1).val = (j 1).val; omega

/-- An array index lies in point `t`'s block iff each coordinate lies in the block's range on its axis. -/
theorem mem_blk (t : Fin cfg1.N) (i : S600000x128.Idx) :
    i ∈ ((cfg1.win 6).blk t).view.set ↔ ∀ a : Fin 2, win1_6.index t a * S6000x128.size a ≤ (i a).val ∧ (i a).val < win1_6.index t a * S6000x128.size a + S6000x128.size a := by
  show i ∈ ((View.whole main_v31).slice (win1_6.rect t)).set ↔ _
  rw [View.set_slice_whole, Rect.mem_set_unit]
  exact Iff.rfl

/-- The array after the region: the hundred row blocks cover it, row `r` by point `r / 6000`. -/
theorem final (c : Dev nD) : (dat1 V c).arrAt 6 cfg1.N
    = fun i => CFConv.filt (V c main_arg3) (V c main_v5) (CFConv.rowVec (V c main_v29)) (V c main_v6) (CFConv.rowVec (V c main_v30)) i * (V c main_v28 : CFConv.SE.Idx → EReal) i :=
  (dat1 V c).arrAt_eq_of_cover 6 _ (fun t _ => flushed_eq V c t) fun i => by
    have hi0 : (i 0).val < 600000 := (i 0).isLt
    have hi1 : (i 1).val < 128 := (i 1).isLt
    have hN : cfg1.N = 100 := N_1
    refine ⟨⟨(i 0).val / 6000, by rw [hN]; omega⟩, flush1_6 _, ?_⟩
    rw [mem_blk]
    obtain ⟨e00, e01, e10, e11, e20, e21, e30, e31, e40, e41, e50, e51, e60, e61⟩ := idx_facts ⟨(i 0).val / 6000, by rw [hN]; omega⟩
    intro a
    match a with
    | ⟨0, _⟩ => show win1_6.index _ (0 : Fin 2) * 6000 ≤ (i 0).val ∧ (i 0).val < win1_6.index _ (0 : Fin 2) * 6000 + 6000; rw [e60]; show (i 0).val / 6000 * 6000 ≤ _ ∧ _ < (i 0).val / 6000 * 6000 + 6000; omega
    | ⟨1, _⟩ => show win1_6.index _ (1 : Fin 2) * 128 ≤ (i 1).val ∧ (i 1).val < win1_6.index _ (1 : Fin 2) * 128 + 128; rw [e61]; omega

end Cert.KernelIdeal.Edge

end
-- ==== Proof.KernelTail.lean ====
/-
  The third kernel, the block's tail, as one whole-array function of what the region finds in its six input arrays.
  Grid point `t` reads rows `5000 t … 5000 t + 4999` of `h1` and of the aggregated messages, and the four parameter
  arrays whole; at row `p`, column `q` of its block it stores
  `Σ_k ssp(Σ_g (h1[p, g] + agg[p, g]) · L2t[g, k] + l2[k]) · Lt[k, q] + l[q]`.
  The ten row blocks tile the 50000 nodes, so the array after the region is `tail`.
-/
import proofs.«175740_j49838800503616_1_alg».proof.Proof.Gen.KernelIdeal.Frame
import proofs.«175740_j49838800503616_1_alg».proof.Proof.KernelDots
import proofs.«175740_j49838800503616_1_alg».proof.Proof.Spec
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A [1, 128] row broadcast down the block's rows reads the row's entry of the column. -/
theorem bcastRow_apply (b : Vec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The body's stored value at row `p`, column `q` of its block. -/
theorem pay_apply (h1 ag : Vec Ideal S5000x128 .f32) (w2 : Vec Ideal S128x128 .f32) (b2 : Vec Ideal S1x128 .f32)
    (wl : Vec Ideal S128x128 .f32) (bl : Vec Ideal S1x128 .f32) (p : Fin 5000) (q : Fin 128) :
    k2_pay1 h1 ag w2 b2 wl bl (ix2 p q)
      = (∑ k : Fin 128, CFConv.ssp ((∑ g : Fin 128, (h1 (ix2 p g) + ag (ix2 p g)) * w2 (ix2 g k)) + b2 (ix2 (0 : Fin 1) k)) * wl (ix2 k q)) + bl (ix2 (0 : Fin 1) q) := by
  unfold k2_pay1
  simp only [shapeCast_self]
  rw [addf_apply, Dots.node_apply, bcastRow_apply]
  refine congrArg (· + bl (ix2 (0 : Fin 1) q)) (Finset.sum_congr rfl fun k _ => congrArg (· * wl (ix2 k q)) ?_)
  refine (CFConv.ssp_kernel (FloatOps.addf (matmul dot_S5000x128_S128x128_S5000x128_1_0_0_1_n_n none (truncf .bf16 (addf h1 ag) bitsLt_bf16_f32) (truncf .bf16 w2 bitsLt_bf16_f32) (constant S5000x128 .f32 0x00000000#32) (ix2 p k)) (broadcastTo S5000x128 b2 broadcasts_S1x128_S5000x128 (ix2 p k)))).trans ?_
  refine congrArg CFConv.ssp ?_
  show matmul (F := Ideal) dot_S5000x128_S128x128_S5000x128_1_0_0_1_n_n none (truncf (F := Ideal) .bf16 (addf h1 ag) bitsLt_bf16_f32) (truncf (F := Ideal) .bf16 w2 bitsLt_bf16_f32) (constant (F := Ideal) S5000x128 .f32 0x00000000#32) (ix2 p k) + broadcastTo S5000x128 b2 broadcasts_S1x128_S5000x128 (ix2 p k) = _
  rw [Dots.node_apply, bcastRow_apply]
  rfl

/-- One point of the grid against the whole-array function. -/
theorem point (H1 AGG : CFConv.SN.Idx → EReal) (L2t : CFConv.SW.Idx → EReal) (B2 : CFConv.SR.Idx → EReal) (Lt : CFConv.SW.Idx → EReal)
    (Bl : CFConv.SR.Idx → EReal)
    (h1 ag : Vec Ideal S5000x128 .f32) (w2 : Vec Ideal S128x128 .f32) (b2 : Vec Ideal S1x128 .f32)
    (wl : Vec Ideal S128x128 .f32) (bl : Vec Ideal S1x128 .f32)
    (y : S5000x128.Idx) (i : CFConv.SN.Idx) (tv : Nat)
    (hh1 : ∀ (p : Fin 5000) (g : Fin 128) (i' : CFConv.SN.Idx), (i' 0).val = tv * 5000 + p.val → (i' 1).val = g.val → h1 (ix2 p g) = H1 i')
    (hag : ∀ (p : Fin 5000) (g : Fin 128) (i' : CFConv.SN.Idx), (i' 0).val = tv * 5000 + p.val → (i' 1).val = g.val → ag (ix2 p g) = AGG i')
    (hw2 : ∀ u, w2 u = L2t u) (hb2 : ∀ u, b2 u = B2 u) (hwl : ∀ u, wl u = Lt u) (hbl : ∀ u, bl u = Bl u)
    (hi0 : (i 0).val = tv * 5000 + (y 0).val) (hi1 : (i 1).val = (y 1).val) :
    k2_pay1 h1 ag w2 b2 wl bl y = CFConv.tail H1 AGG L2t (CFConv.rowVec B2) Lt (CFConv.rowVec Bl) i := by
  obtain ⟨p, q, rfl⟩ : ∃ (p : Fin 5000) (q : Fin 128), y = ix2 p q := ⟨y 0, y 1, eq_ix2 y⟩
  have hq : CFConv.colN i = q := Fin.ext hi1
  rw [pay_apply]
  unfold CFConv.tail
  rw [hq, CFConv.rowVec_apply, hbl]
  refine congrArg (· + Bl (ix2 (0 : Fin 1) q)) (Finset.sum_congr rfl fun k _ => ?_)
  rw [hwl, CFConv.rowVec_apply, hb2]
  refine congrArg (fun s => CFConv.ssp (s + B2 (ix2 (0 : Fin 1) k)) * Lt (ix2 k q)) (Finset.sum_congr rfl fun g _ => ?_)
  rw [hh1 p g (ix2 (CFConv.rowN i) g) hi0 rfl, hag p g (ix2 (CFConv.rowN i) g) hi0 rfl, hw2]

/-- The printed index maps over the grid: the two row-blocked inputs and the output move with the point, the four
    parameter arrays stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of `tail` of the arrays as the region finds them. -/
theorem flushed_eq (c : Dev nD) (t : Fin cfg2.N) :
    (dat2 V c).flushed 6 t = ((cfg2.win 6).blk t).view.read (Elt Ideal)
      (CFConv.tail (V c main_v9) (V c main_v34) (V c main_v7) (CFConv.rowVec (V c main_v35)) (V c main_v8) (CFConv.rowVec (V c main_v36))) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz, View.ld_unit_zero (S := S128x128) hz]
  obtain ⟨e00, e01, e10, e11, e20, e21, e30, e31, e40, e41, e50, e51, e60, e61⟩ := idx_facts t
  funext j
  show k2_pay1 (iblk2 V c 0 t) (iblk2 V c 1 t) (iblk2 V c 2 t) (iblk2 V c 3 t) (iblk2 V c 4 t) (iblk2 V c 5 t) j
    = CFConv.tail (V c main_v9) (V c main_v34) (V c main_v7) (CFConv.rowVec (V c main_v35)) (V c main_v8) (CFConv.rowVec (V c main_v36)) (((cfg2.win 6).blk t).view.emb j)
  refine point (V c main_v9) (V c main_v34) (V c main_v7) (V c main_v35) (V c main_v8) (V c main_v36)
    (iblk2 V c 0 t) (iblk2 V c 1 t) (iblk2 V c 2 t) (iblk2 V c 3 t) (iblk2 V c 4 t) (iblk2 V c 5 t) j (((cfg2.win 6).blk t).view.emb j) t.val ?_ ?_ ?_ ?_ ?_ ?_ ?_ ?_
  · intro p g i' h0 h1
    show V c main_v9 (((cfg2.win 0).blk t).view.emb (ix2 p g)) = V c main_v9 i'
    refine congrArg (V c main_v9) (funext fun a => Fin.ext ?_)
    match a with
    | ⟨0, _⟩ => show win2_0.index t (0 : Fin 2) * 5000 + 1 * p.val = (i' 0).val; omega
    | ⟨1, _⟩ => show win2_0.index t (1 : Fin 2) * 128 + 1 * g.val = (i' 1).val; omega
  · intro p g i' h0 h1
    show V c main_v34 (((cfg2.win 1).blk t).view.emb (ix2 p g)) = V c main_v34 i'
    refine congrArg (V c main_v34) (funext fun a => Fin.ext ?_)
    match a with
    | ⟨0, _⟩ => show win2_1.index t (0 : Fin 2) * 5000 + 1 * p.val = (i' 0).val; omega
    | ⟨1, _⟩ => show win2_1.index t (1 : Fin 2) * 128 + 1 * g.val = (i' 1).val; omega
  · intro u
    show V c main_v7 (((cfg2.win 2).blk t).view.emb u) = V c main_v7 u
    refine congrArg (V c main_v7) (funext fun a => Fin.ext ?_)
    match a with
    | ⟨0, _⟩ => show win2_2.index t (0 : Fin 2) * 128 + 1 * (u 0).val = (u 0).val; omega
    | ⟨1, _⟩ => show win2_2.index t (1 : Fin 2) * 128 + 1 * (u 1).val = (u 1).val; omega
  · intro u
    show V c main_v35 (((cfg2.win 3).blk t).view.emb u) = V c main_v35 u
    refine congrArg (V c main_v35) (funext fun a => Fin.ext ?_)
    match a with
    | ⟨0, _⟩ => show win2_3.index t (0 : Fin 2) * 1 + 1 * (u 0).val = (u 0).val; omega
    | ⟨1, _⟩ => show win2_3.index t (1 : Fin 2) * 128 + 1 * (u 1).val = (u 1).val; omega
  · intro u
    show V c main_v8 (((cfg2.win 4).blk t).view.emb u) = V c main_v8 u
    refine congrArg (V c main_v8) (funext fun a => Fin.ext ?_)
    match a with
    | ⟨0, _⟩ => show win2_4.index t (0 : Fin 2) * 128 + 1 * (u 0).val = (u 0).val; omega
    | ⟨1, _⟩ => show win2_4.index t (1 : Fin 2) * 128 + 1 * (u 1).val = (u 1).val; omega
  · intro u
    show V c main_v36 (((cfg2.win 5).blk t).view.emb u) = V c main_v36 u
    refine congrArg (V c main_v36) (funext fun a => Fin.ext ?_)
    match a with
    | ⟨0, _⟩ => show win2_5.index t (0 : Fin 2) * 1 + 1 * (u 0).val = (u 0).val; omega
    | ⟨1, _⟩ => show win2_5.index t (1 : Fin 2) * 128 + 1 * (u 1).val = (u 1).val; omega
  · show win2_6.index t (0 : Fin 2) * 5000 + 1 * (j 0).val = t.val * 5000 + (j 0).val; omega
  · show win2_6.index t (1 : Fin 2) * 128 + 1 * (j 1).val = (j 1).val; omega

/-- An array index lies in point `t`'s block iff each coordinate lies in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v37).slice (win2_6.rect t)).set ↔ _
  rw [View.set_slice_whole, Rect.mem_set_unit]
  exact Iff.rfl

/-- The array after the region: the ten row blocks cover it, row `r` by point `r / 5000`. -/
theorem final (c : Dev nD) : (dat2 V c).arrAt 6 cfg2.N
    = CFConv.tail (V c main_v9) (V c main_v34) (V c main_v7) (CFConv.rowVec (V c main_v35)) (V c main_v8) (CFConv.rowVec (V c main_v36)) :=
  (dat2 V c).arrAt_eq_of_cover 6 _ (fun t _ => flushed_eq V c t) fun i => by
    have hi0 : (i 0).val < 50000 := (i 0).isLt
    have hi1 : (i 1).val < 128 := (i 1).isLt
    have hN : cfg2.N = 10 := N_2
    refine ⟨⟨(i 0).val / 5000, by rw [hN]; omega⟩, flush2_6 _, ?_⟩
    rw [mem_blk]
    obtain ⟨e00, e01, e10, e11, e20, e21, e30, e31, e40, e41, e50, e51, e60, e61⟩ := idx_facts ⟨(i 0).val / 5000, by rw [hN]; omega⟩
    intro a
    match a with
    | ⟨0, _⟩ => show win2_6.index _ (0 : Fin 2) * 5000 ≤ (i 0).val ∧ (i 0).val < win2_6.index _ (0 : Fin 2) * 5000 + 5000; rw [e60]; show (i 0).val / 5000 * 5000 ≤ _ ∧ _ < (i 0).val / 5000 * 5000 + 5000; omega
    | ⟨1, _⟩ => show win2_6.index _ (1 : Fin 2) * 128 ≤ (i 1).val ∧ (i 1).val < win2_6.index _ (1 : Fin 2) * 128 + 128; rw [e61]; omega

end Cert.KernelIdeal.Tail

end
-- ==== Proof.RefSpec.lean ====
/-
  The reference's stages, read entry by entry from its generated read-at-an-index lemmas, are the three whole-array
  functions of the specification: `h · W1ᵀ` is `lin`, the edge filter is `filt`, and the result is `tail` of `h1`, the
  aggregated messages and the transposed weights. The gather, the scatter-add and the cosine cutoff stay the host's own
  functions of the arguments: nothing here opens them.
-/
import proofs.«175740_j49838800503616_1_alg».proof.Proof.Gen.ReferenceIdeal.Read
import proofs.«175740_j49838800503616_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- `h · W1ᵀ`: the reference's first `dot_general` is `lin` of the node features and the transposed weight. -/
theorem v5_eq (x0 : (⟨S50000x128, .f32⟩ : BufTy).Contents (Elt Ideal)) (x8 : (⟨S128x128, .f32⟩ : BufTy).Contents (Elt Ideal)) :
    val_main_v5 (F := Ideal) x0 x8 = CFConv.lin x0 (val_main_v4 (F := Ideal) x8) := by
  funext i
  rw [val_main_v5_apply]
  unfold CFConv.lin
  refine Finset.sum_congr rfl fun k _ => ?_
  have el : lidx_main_v5 i k = ix2 (CFConv.rowN i) k := funext fun a => by match a with | ⟨0, _⟩ => rfl | ⟨1, _⟩ => rfl
  have er : ridx_main_v5 i k = ix2 k (CFConv.colN i) := funext fun a => by match a with | ⟨0, _⟩ => rfl | ⟨1, _⟩ => rfl
  rw [el, er]

/-- The reference's shifted softplus stage, entry by entry: `jax.nn.softplus`'s outlined body minus the `ln 2` word. -/
theorem act_edge (x3 : (⟨S600000x50, .f32⟩ : BufTy).Contents (Elt Ideal)) (x4 : (⟨S128x50, .f32⟩ : BufTy).Contents (Elt Ideal)) (x5 : (⟨S128, .f32⟩ : BufTy).Contents (Elt Ideal)) (i : S600000x128.Idx) :
    val_main_v22 (F := Ideal) x3 x4 x5 i = CFConv.ssp (val_main_v19 (F := Ideal) x3 x4 x5 i) := by
  simp only [val_main_v22_apply, val_main_v20_apply, val_main_call0_v4_apply, val_main_call0_v3_apply, val_main_call0_v6_apply,
    val_main_call0_v11_apply, val_main_call0_v1_apply, val_main_call0_v10_apply, val_main_call0_v9_apply, val_main_call0_v8_apply,
    val_main_call0_v7_apply, val_main_call0_v2_apply, val_main_call0_v0_apply, val_main_call0_v5_apply, val_main_call0_cst_apply,
    val_main_v21_apply, val_main_cst_3_apply, Ideal.ofBits_def]
  exact CFConv.ssp_host _

/-- The edge filter `ssp(ea · W0ᵀ + b0) · W2ᵀ + b2`: two `dot_general`s, two broadcast biases and the shifted softplus
    between them are `filt`. -/
theorem v27_eq (x3 : (⟨S600000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v27 (F := Ideal) x3 x4 x5 x6 x7 = CFConv.filt x3 (val_main_v15 (F := Ideal) x4) x5 (val_main_v23 (F := Ideal) x6) x7 := by
  funext i
  rw [val_main_v27_apply, val_main_v24_apply, val_main_v26_apply, val_main_v25_apply, Ideal.addf_def]
  unfold CFConv.filt
  have eb : idx_main_v25 (idx_main_v26 i) = ix1 (CFConv.colE i) := funext fun a => by match a with | ⟨0, _⟩ => rfl
  rw [eb]
  refine congrArg (· + x7 (ix1 (CFConv.colE i))) (Finset.sum_congr rfl fun k _ => ?_)
  have er : ridx_main_v24 i k = ix2 k (CFConv.colE i) := funext fun a => by match a with | ⟨0, _⟩ => rfl | ⟨1, _⟩ => rfl
  rw [er, act_edge, val_main_v19_apply, val_main_v16_apply, val_main_v18_apply, val_main_v17_apply, Ideal.addf_def]
  have eb0 : idx_main_v17 (idx_main_v18 (lidx_main_v24 i k)) = ix1 k := funext fun a => by match a with | ⟨0, _⟩ => rfl
  rw [eb0]
  refine congrArg (fun s => CFConv.ssp (s + x5 (ix1 k)) * val_main_v23 (F := Ideal) x6 (ix2 k (CFConv.colE i))) (Finset.sum_congr rfl fun g _ => ?_)
  have el : lidx_main_v16 (lidx_main_v24 i k) g = ix2 (CFConv.rowE i) g := funext fun a => by match a with | ⟨0, _⟩ => rfl | ⟨1, _⟩ => rfl
  have er0 : ridx_main_v16 (lidx_main_v24 i k) g = ix2 g k := funext fun a => by match a with | ⟨0, _⟩ => rfl | ⟨1, _⟩ => rfl
  rw [el, er0]

/-- The message of every edge, entry by entry: the cutoff times (the filter times the gathered row). -/
theorem v38_apply' (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S600000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (i : S600000x128.Idx) :
    val_main_v38 (F := Ideal) x0 x1 x2 x3 x4 x5 x6 x7 x8 i
      = val_main_v37 (F := Ideal) x2 i * (CFConv.filt x3 (val_main_v15 (F := Ideal) x4) x5 (val_main_v23 (F := Ideal) x6) x7 i * val_main_v35 (F := Ideal) x0 x1 x8 i) := by
  rw [val_main_v38_apply, val_main_v36_apply, v27_eq]
  rfl

/-- The reference's shifted softplus stage, entry by entry: `jax.nn.softplus`'s outlined body minus the `ln 2` word. -/
theorem act_node (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S600000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (i : S50000x128.Idx) :
    val_main_v50 (F := Ideal) x0 x1 x2 x3 x4 x5 x6 x7 x8 x9 x10 i = CFConv.ssp (val_main_v47 (F := Ideal) x0 x1 x2 x3 x4 x5 x6 x7 x8 x9 x10 i) := by
  simp only [val_main_v50_apply, val_main_v48_apply, val_main_call1_v4_apply, val_main_call1_v3_apply, val_main_call1_v6_apply,
    val_main_call1_v11_apply, val_main_call1_v1_apply, val_main_call1_v10_apply, val_main_call1_v9_apply, val_main_call1_v8_apply,
    val_main_call1_v7_apply, val_main_call1_v2_apply, val_main_call1_v0_apply, val_main_call1_v5_apply, val_main_call1_cst_apply,
    val_main_v49_apply, val_main_cst_6_apply, Ideal.ofBits_def]
  exact CFConv.ssp_host _

/-- The result `ssp((h1 + agg) · L2ᵀ + l2) · Lᵀ + l` is `tail` of `h1`, the aggregated messages, the two transposed weights
    and the two biases. -/
theorem v55_eq (x0 : (⟨S50000x128, .f32⟩ : BufTy).Contents (Elt Ideal)) (x1 : (⟨S2x600000, .i32⟩ : BufTy).Contents (Elt Ideal)) (x2 : (⟨S600000, .f32⟩ : BufTy).Contents (Elt Ideal)) (x3 : (⟨S600000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v55 (F := Ideal) x0 x1 x2 x3 x4 x5 x6 x7 x8 x9 x10 x11 x12
      = CFConv.tail (val_main_v5 (F := Ideal) x0 x8) (val_main_v41 (F := Ideal) x0 x1 x2 x3 x4 x5 x6 x7 x8) (val_main_v43 (F := Ideal) x9) x10 (val_main_v51 (F := Ideal) x11) x12 := by
  funext i
  rw [val_main_v55_apply, val_main_v52_apply, val_main_v54_apply, val_main_v53_apply, Ideal.addf_def]
  unfold CFConv.tail
  have eb : idx_main_v53 (idx_main_v54 i) = ix1 (CFConv.colN i) := funext fun a => by match a with | ⟨0, _⟩ => rfl
  rw [eb]
  refine congrArg (· + x12 (ix1 (CFConv.colN i))) (Finset.sum_congr rfl fun k _ => ?_)
  have er : ridx_main_v52 i k = ix2 k (CFConv.colN i) := funext fun a => by match a with | ⟨0, _⟩ => rfl | ⟨1, _⟩ => rfl
  rw [er, act_node, val_main_v47_apply, val_main_v44_apply, val_main_v46_apply, val_main_v45_apply, Ideal.addf_def]
  have eb0 : idx_main_v45 (idx_main_v46 (lidx_main_v52 i k)) = ix1 k := funext fun a => by match a with | ⟨0, _⟩ => rfl
  rw [eb0]
  refine congrArg (fun s => CFConv.ssp (s + x10 (ix1 k)) * val_main_v51 (F := Ideal) x11 (ix2 k (CFConv.colN i))) (Finset.sum_congr rfl fun g _ => ?_)
  have el : lidx_main_v44 (lidx_main_v52 i k) g = ix2 (CFConv.rowN i) g := funext fun a => by match a with | ⟨0, _⟩ => rfl | ⟨1, _⟩ => rfl
  have er0 : ridx_main_v44 (lidx_main_v52 i k) g = ix2 g k := funext fun a => by match a with | ⟨0, _⟩ => rfl | ⟨1, _⟩ => rfl
  rw [el, er0, val_main_v42_apply, Ideal.addf_def]

end Cert.ReferenceIdeal.RefValue

end
-- ==== Proof.KernelValue.lean ====
/-
  The kernel's program read from its last buffer back to its arguments. Between the three kernels the host computes
  the same gather, cosine cutoff, scatter-add and transposes as the reference, on the same arguments; so once each
  kernel's array is its whole-array function (`lin`, the filter times the scaled rows, `tail`) the result buffer holds
  the reference's own last stage of the launched arguments. The one place the two orders of multiplication differ is
  the message: the kernel stores `Wf · (c · g)`, the reference `c · (Wf · g)`.
-/
import proofs.«175740_j49838800503616_1_alg».proof.Proof.Gen.KernelIdeal.Frame
import proofs.«175740_j49838800503616_1_alg».proof.Proof.KernelLin
import proofs.«175740_j49838800503616_1_alg».proof.Proof.KernelEdge
import proofs.«175740_j49838800503616_1_alg».proof.Proof.KernelTail
import proofs.«175740_j49838800503616_1_alg».proof.Proof.RefSpec
import Idealize.ShloMosaic.Lib.StableHlo.Run
import Idealize.ShloMosaic.Lib.Pipeline.Value

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-- A [128] bias reshaped to a [1, 128] row and read back as a vector is the bias. -/
theorem rowVec_reshape (b : S128.Idx → EReal) (h : S128.ShapeCasts S1x128) : CFConv.rowVec (shapeCast S1x128 b h) = b := by
  funext u
  unfold CFConv.rowVec
  refine shapeCast_apply b h _ u ?_
  rw [Shape.rowMajor_val_two, Shape.rowMajor_val_one]
  show (u 0).val = 0 * 128 + (u 0).val
  omega

/-! ## Before the first kernel: the arguments, and the host's slices, reshapes and transposes of them -/

theorem W1_arg0 : W1 m ρ c (Proc.devRef .tc main_arg0) = (m ((c : Thread nD τ).loc main_arg0)) := by
  show StableHlo.after hostOps0 (W0 m ρ c) (Proc.devRef .tc main_arg0) = _
  dsimp only [hostOps0]; after_results; try rfl
theorem W1_arg2 : W1 m ρ c (Proc.devRef .tc main_arg2) = (m ((c : Thread nD τ).loc main_arg2)) := by
  show StableHlo.after hostOps0 (W0 m ρ c) (Proc.devRef .tc main_arg2) = _
  dsimp only [hostOps0]; after_results; try rfl
theorem W1_arg3 : W1 m ρ c (Proc.devRef .tc main_arg3) = (m ((c : Thread nD τ).loc main_arg3)) := by
  show StableHlo.after hostOps0 (W0 m ρ c) (Proc.devRef .tc main_arg3) = _
  dsimp only [hostOps0]; after_results; try rfl
theorem W1_arg5 : W1 m ρ c (Proc.devRef .tc main_arg5) = (m ((c : Thread nD τ).loc main_arg5)) := by
  show StableHlo.after hostOps0 (W0 m ρ c) (Proc.devRef .tc main_arg5) = _
  dsimp only [hostOps0]; after_results; try rfl
theorem W1_arg7 : W1 m ρ c (Proc.devRef .tc main_arg7) = (m ((c : Thread nD τ).loc main_arg7)) := by
  show StableHlo.after hostOps0 (W0 m ρ c) (Proc.devRef .tc main_arg7) = _
  dsimp only [hostOps0]; after_results; try rfl
theorem W1_arg10 : W1 m ρ c (Proc.devRef .tc main_arg10) = (m ((c : Thread nD τ).loc main_arg10)) := by
  show StableHlo.after hostOps0 (W0 m ρ c) (Proc.devRef .tc main_arg10) = _
  dsimp only [hostOps0]; after_results; try rfl
theorem W1_arg12 : W1 m ρ c (Proc.devRef .tc main_arg12) = (m ((c : Thread nD τ).loc main_arg12)) := by
  show StableHlo.after hostOps0 (W0 m ρ c) (Proc.devRef .tc main_arg12) = _
  dsimp only [hostOps0]; after_results; try rfl
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]; after_results; try rfl
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]; after_results; try rfl
theorem W1_v4 : W1 m ρ c (Proc.devRef .tc main_v4) = Cert.ReferenceIdeal.Read.val_main_v4 (F := Ideal) (m ((c : Thread nD τ).loc main_arg8)) := by
  show StableHlo.after hostOps0 (W0 m ρ c) (Proc.devRef .tc main_v4) = _
  dsimp only [hostOps0]; after_results; try rfl
theorem W1_v5 : W1 m ρ c (Proc.devRef .tc main_v5) = Cert.ReferenceIdeal.Read.val_main_v15 (F := Ideal) (m ((c : Thread nD τ).loc main_arg4)) := by
  show StableHlo.after hostOps0 (W0 m ρ c) (Proc.devRef .tc main_v5) = _
  dsimp only [hostOps0]; after_results; try rfl
theorem W1_v6 : W1 m ρ c (Proc.devRef .tc main_v6) = Cert.ReferenceIdeal.Read.val_main_v23 (F := Ideal) (m ((c : Thread nD τ).loc main_arg6)) := by
  show StableHlo.after hostOps0 (W0 m ρ c) (Proc.devRef .tc main_v6) = _
  dsimp only [hostOps0]; after_results; try rfl
theorem W1_v7 : W1 m ρ c (Proc.devRef .tc main_v7) = Cert.ReferenceIdeal.Read.val_main_v43 (F := Ideal) (m ((c : Thread nD τ).loc main_arg9)) := by
  show StableHlo.after hostOps0 (W0 m ρ c) (Proc.devRef .tc main_v7) = _
  dsimp only [hostOps0]; after_results; try rfl
theorem W1_v8 : W1 m ρ c (Proc.devRef .tc main_v8) = Cert.ReferenceIdeal.Read.val_main_v51 (F := Ideal) (m ((c : Thread nD τ).loc main_arg11)) := by
  show StableHlo.after hostOps0 (W0 m ρ c) (Proc.devRef .tc main_v8) = _
  dsimp only [hostOps0]; after_results; try rfl

/-! ## After the first kernel -/

/-- The first kernel leaves `h1 = h · W1ᵀ`, the reference's own first product of the launched arguments. -/
theorem W2_v9 : W2 m ρ c (Proc.devRef .tc main_v9) = Cert.ReferenceIdeal.Read.val_main_v5 (F := Ideal) (m ((c : Thread nD τ).loc main_arg0)) (m ((c : Thread nD τ).loc main_arg8)) := by
  rw [show W2 m ρ c (Proc.devRef .tc main_v9) = (dat0 (V1 m ρ) c).arrAt 2 cfg0.N from W2_arr m ρ c 2, Lin.final, Cert.ReferenceIdeal.RefValue.v5_eq]
  show CFConv.lin (W1 m ρ c (Proc.devRef .tc main_arg0)) (W1 m ρ c (Proc.devRef .tc main_v4)) = _
  rw [W1_arg0, W1_v4]
theorem W2_arg2 : W2 m ρ c (Proc.devRef .tc main_arg2) = W1 m ρ c (Proc.devRef .tc main_arg2) := W2_of_ne m ρ c main_arg2 (by decide)
theorem W2_arg3 : W2 m ρ c (Proc.devRef .tc main_arg3) = W1 m ρ c (Proc.devRef .tc main_arg3) := W2_of_ne m ρ c main_arg3 (by decide)
theorem W2_arg5 : W2 m ρ c (Proc.devRef .tc main_arg5) = W1 m ρ c (Proc.devRef .tc main_arg5) := W2_of_ne m ρ c main_arg5 (by decide)
theorem W2_arg7 : W2 m ρ c (Proc.devRef .tc main_arg7) = W1 m ρ c (Proc.devRef .tc main_arg7) := W2_of_ne m ρ c main_arg7 (by decide)
theorem W2_arg10 : W2 m ρ c (Proc.devRef .tc main_arg10) = W1 m ρ c (Proc.devRef .tc main_arg10) := W2_of_ne m ρ c main_arg10 (by decide)
theorem W2_arg12 : W2 m ρ c (Proc.devRef .tc main_arg12) = W1 m ρ c (Proc.devRef .tc main_arg12) := W2_of_ne m ρ c main_arg12 (by decide)
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v5 : W2 m ρ c (Proc.devRef .tc main_v5) = W1 m ρ c (Proc.devRef .tc main_v5) := W2_of_ne m ρ c main_v5 (by decide)
theorem W2_v6 : W2 m ρ c (Proc.devRef .tc main_v6) = W1 m ρ c (Proc.devRef .tc main_v6) := W2_of_ne m ρ c main_v6 (by decide)
theorem W2_v7 : W2 m ρ c (Proc.devRef .tc main_v7) = W1 m ρ c (Proc.devRef .tc main_v7) := W2_of_ne m ρ c main_v7 (by decide)
theorem W2_v8 : W2 m ρ c (Proc.devRef .tc main_v8) = W1 m ρ c (Proc.devRef .tc main_v8) := W2_of_ne m ρ c main_v8 (by decide)

/-! ## Before the second kernel: its six input arrays -/

theorem W3_arg3 : W3 m ρ c (Proc.devRef .tc main_arg3) = W2 m ρ c (Proc.devRef .tc main_arg3) := by
  show StableHlo.after hostOps1 (W2 m ρ c) (Proc.devRef .tc main_arg3) = _
  dsimp only [hostOps1]; after_results; try rfl
theorem W3_arg10 : W3 m ρ c (Proc.devRef .tc main_arg10) = W2 m ρ c (Proc.devRef .tc main_arg10) := by
  show StableHlo.after hostOps1 (W2 m ρ c) (Proc.devRef .tc main_arg10) = _
  dsimp only [hostOps1]; after_results; try rfl
theorem W3_arg12 : W3 m ρ c (Proc.devRef .tc main_arg12) = W2 m ρ c (Proc.devRef .tc main_arg12) := by
  show StableHlo.after hostOps1 (W2 m ρ c) (Proc.devRef .tc main_arg12) = _
  dsimp only [hostOps1]; after_results; try rfl
theorem W3_v3 : W3 m ρ c (Proc.devRef .tc main_v3) = W2 m ρ c (Proc.devRef .tc main_v3) := by
  show StableHlo.after hostOps1 (W2 m ρ c) (Proc.devRef .tc main_v3) = _
  dsimp only [hostOps1]; after_results; try rfl
theorem W3_v5 : W3 m ρ c (Proc.devRef .tc main_v5) = W2 m ρ c (Proc.devRef .tc main_v5) := by
  show StableHlo.after hostOps1 (W2 m ρ c) (Proc.devRef .tc main_v5) = _
  dsimp only [hostOps1]; after_results; try rfl
theorem W3_v6 : W3 m ρ c (Proc.devRef .tc main_v6) = W2 m ρ c (Proc.devRef .tc main_v6) := by
  show StableHlo.after hostOps1 (W2 m ρ c) (Proc.devRef .tc main_v6) = _
  dsimp only [hostOps1]; after_results; try rfl
theorem W3_v7 : W3 m ρ c (Proc.devRef .tc main_v7) = W2 m ρ c (Proc.devRef .tc main_v7) := by
  show StableHlo.after hostOps1 (W2 m ρ c) (Proc.devRef .tc main_v7) = _
  dsimp only [hostOps1]; after_results; try rfl
theorem W3_v8 : W3 m ρ c (Proc.devRef .tc main_v8) = W2 m ρ c (Proc.devRef .tc main_v8) := by
  show StableHlo.after hostOps1 (W2 m ρ c) (Proc.devRef .tc main_v8) = _
  dsimp only [hostOps1]; after_results; try rfl
theorem W3_v9 : W3 m ρ c (Proc.devRef .tc main_v9) = W2 m ρ c (Proc.devRef .tc main_v9) := by
  show StableHlo.after hostOps1 (W2 m ρ c) (Proc.devRef .tc main_v9) = _
  dsimp only [hostOps1]; after_results; try rfl
theorem V3_arg3 : V3 m ρ c main_arg3 = (m ((c : Thread nD τ).loc main_arg3)) := (W3_arg3 m ρ c).trans ((W2_arg3 m ρ c).trans (W1_arg3 m ρ c))
theorem V3_v5 : V3 m ρ c main_v5 = Cert.ReferenceIdeal.Read.val_main_v15 (F := Ideal) (m ((c : Thread nD τ).loc main_arg4)) := (W3_v5 m ρ c).trans ((W2_v5 m ρ c).trans (W1_v5 m ρ c))
theorem V3_v6 : V3 m ρ c main_v6 = Cert.ReferenceIdeal.Read.val_main_v23 (F := Ideal) (m ((c : Thread nD τ).loc main_arg6)) := (W3_v6 m ρ c).trans ((W2_v6 m ρ c).trans (W1_v6 m ρ c))
theorem V3_v29 : CFConv.rowVec (V3 m ρ c main_v29) = (m ((c : Thread nD τ).loc main_arg5)) := by
  have h : V3 m ρ c main_v29 = shapeCast S1x128 (m ((c : Thread nD τ).loc main_arg5)) shapeCasts_S128_S1x128 := by
    show StableHlo.after hostOps1 (W2 m ρ c) (Proc.devRef .tc main_v29) = _
    dsimp only [hostOps1]; after_results
    rw [W2_arg5, W1_arg5]; try rfl
  rw [h]; exact rowVec_reshape _ _
theorem V3_v30 : CFConv.rowVec (V3 m ρ c main_v30) = (m ((c : Thread nD τ).loc main_arg7)) := by
  have h : V3 m ρ c main_v30 = shapeCast S1x128 (m ((c : Thread nD τ).loc main_arg7)) shapeCasts_S128_S1x128 := by
    show StableHlo.after hostOps1 (W2 m ρ c) (Proc.devRef .tc main_v30) = _
    dsimp only [hostOps1]; after_results
    rw [W2_arg7, W1_arg7]; try rfl
  rw [h]; exact rowVec_reshape _ _
set_option maxHeartbeats 4000000 in
/-- The scaled gathered rows: the host's cosine cutoff of the edge lengths, broadcast along the features, times the rows
    of `h1` gathered at the (wrapped) source indices: the reference's own two stages, multiplied. -/
theorem V3_v28 : V3 m ρ c main_v28 = (mulf (Cert.ReferenceIdeal.Read.val_main_v37 (F := Ideal) (m ((c : Thread nD τ).loc main_arg2))) (Cert.ReferenceIdeal.Read.val_main_v35 (F := Ideal) (m ((c : Thread nD τ).loc main_arg0)) (m ((c : Thread nD τ).loc main_arg1)) (m ((c : Thread nD τ).loc main_arg8))) : FVec Ideal S600000x128 .f32) := by
  show StableHlo.after hostOps1 (W2 m ρ c) (Proc.devRef .tc main_v28) = _
  dsimp only [hostOps1]; after_results_simp
  rw [W2_arg2, W1_arg2, W2_v9, W2_v1, W1_v1]
  rfl

/-! ## After the second kernel -/

/-- The second kernel leaves the reference's messages: `Wf · (c · g) = c · (Wf · g)` entry by entry. -/
theorem W4_v31 : W4 m ρ c (Proc.devRef .tc main_v31) = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W4 m ρ c (Proc.devRef .tc main_v31) = (dat1 (V3 m ρ) c).arrAt 6 cfg1.N from W4_arr m ρ c 6, Edge.final]
  funext i
  rw [Cert.ReferenceIdeal.RefValue.v38_apply', V3_arg3, V3_v5, V3_v29, V3_v6, V3_v30, V3_v28]
  exact CFConv.msg_comm _ _ _
theorem W4_arg10 : W4 m ρ c (Proc.devRef .tc main_arg10) = W3 m ρ c (Proc.devRef .tc main_arg10) := W4_of_ne m ρ c main_arg10 (by decide)
theorem W4_arg12 : W4 m ρ c (Proc.devRef .tc main_arg12) = W3 m ρ c (Proc.devRef .tc main_arg12) := W4_of_ne m ρ c main_arg12 (by decide)
theorem W4_v3 : W4 m ρ c (Proc.devRef .tc main_v3) = W3 m ρ c (Proc.devRef .tc main_v3) := W4_of_ne m ρ c main_v3 (by decide)
theorem W4_v7 : W4 m ρ c (Proc.devRef .tc main_v7) = W3 m ρ c (Proc.devRef .tc main_v7) := W4_of_ne m ρ c main_v7 (by decide)
theorem W4_v8 : W4 m ρ c (Proc.devRef .tc main_v8) = W3 m ρ c (Proc.devRef .tc main_v8) := W4_of_ne m ρ c main_v8 (by decide)
theorem W4_v9 : W4 m ρ c (Proc.devRef .tc main_v9) = W3 m ρ c (Proc.devRef .tc main_v9) := W4_of_ne m ρ c main_v9 (by decide)

/-! ## Before the third kernel: its six input arrays -/

theorem W5_v7 : W5 m ρ c (Proc.devRef .tc main_v7) = W4 m ρ c (Proc.devRef .tc main_v7) := by
  show StableHlo.after hostOps2 (W4 m ρ c) (Proc.devRef .tc main_v7) = _
  dsimp only [hostOps2]; after_results; try rfl
theorem W5_v8 : W5 m ρ c (Proc.devRef .tc main_v8) = W4 m ρ c (Proc.devRef .tc main_v8) := by
  show StableHlo.after hostOps2 (W4 m ρ c) (Proc.devRef .tc main_v8) = _
  dsimp only [hostOps2]; after_results; try rfl
theorem W5_v9 : W5 m ρ c (Proc.devRef .tc main_v9) = W4 m ρ c (Proc.devRef .tc main_v9) := by
  show StableHlo.after hostOps2 (W4 m ρ c) (Proc.devRef .tc main_v9) = _
  dsimp only [hostOps2]; after_results; try rfl
theorem V5_v9 : V5 m ρ c main_v9 = Cert.ReferenceIdeal.Read.val_main_v5 (F := Ideal) (m ((c : Thread nD τ).loc main_arg0)) (m ((c : Thread nD τ).loc main_arg8)) :=
  (W5_v9 m ρ c).trans ((W4_v9 m ρ c).trans ((W3_v9 m ρ c).trans (W2_v9 m ρ c)))
theorem V5_v7 : V5 m ρ c main_v7 = Cert.ReferenceIdeal.Read.val_main_v43 (F := Ideal) (m ((c : Thread nD τ).loc main_arg9)) :=
  (W5_v7 m ρ c).trans ((W4_v7 m ρ c).trans ((W3_v7 m ρ c).trans ((W2_v7 m ρ c).trans (W1_v7 m ρ c))))
theorem V5_v8 : V5 m ρ c main_v8 = Cert.ReferenceIdeal.Read.val_main_v51 (F := Ideal) (m ((c : Thread nD τ).loc main_arg11)) :=
  (W5_v8 m ρ c).trans ((W4_v8 m ρ c).trans ((W3_v8 m ρ c).trans ((W2_v8 m ρ c).trans (W1_v8 m ρ c))))
theorem V5_v35 : CFConv.rowVec (V5 m ρ c main_v35) = (m ((c : Thread nD τ).loc main_arg10)) := by
  have h : V5 m ρ c main_v35 = shapeCast S1x128 (m ((c : Thread nD τ).loc main_arg10)) shapeCasts_S128_S1x128 := by
    show StableHlo.after hostOps2 (W4 m ρ c) (Proc.devRef .tc main_v35) = _
    dsimp only [hostOps2]; after_results
    rw [W4_arg10, W3_arg10, W2_arg10, W1_arg10]; try rfl
  rw [h]; exact rowVec_reshape _ _
theorem V5_v36 : CFConv.rowVec (V5 m ρ c main_v36) = (m ((c : Thread nD τ).loc main_arg12)) := by
  have h : V5 m ρ c main_v36 = shapeCast S1x128 (m ((c : Thread nD τ).loc main_arg12)) shapeCasts_S128_S1x128 := by
    show StableHlo.after hostOps2 (W4 m ρ c) (Proc.devRef .tc main_v36) = _
    dsimp only [hostOps2]; after_results
    rw [W4_arg12, W3_arg12, W2_arg12, W1_arg12]; try rfl
  rw [h]; exact rowVec_reshape _ _
/-- The aggregated messages: the host's scatter-add of the second kernel's array into zeros at the target indices: the
    reference's own stage. -/
theorem V5_v34 : V5 m ρ c main_v34 = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v34) = _
  dsimp only [hostOps2]; after_results
  rw [W4_v31, W4_v3, W3_v3, W2_v3, W1_v3]
  rfl

/-! ## After the third kernel -/

/-- The result buffer holds the reference's last stage of the launched arguments. -/
theorem result : W6 m ρ c (Proc.devRef .tc main_v37) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W6 m ρ c (Proc.devRef .tc main_v37) = (dat2 (V5 m ρ) c).arrAt 6 cfg2.N from W6_arr m ρ c 6, Tail.final, Cert.ReferenceIdeal.RefValue.v55_eq,
    V5_v9, V5_v34, V5_v7, V5_v35, V5_v8, V5_v36]

end Cert.KernelIdeal.Walk

end
-- ==== Proof.lean ====
/-
  The certificate of the continuous-filter convolution block: three kernels (`h1 = h · W1ᵀ`; the edge filter times the scaled
  gathered rows; the tail `ssp((h1 + agg) · L2ᵀ + l2) · Lᵀ + l`) with the host's gather, cosine cutoff and scatter-add between
  them, against the one-piece jnp reference.

  The three frames: the two kernel programs' are their generated frames; the reference has no kernel, and its frame is its
  generated run with the result dropped. The idealization rewrote nothing (its ledger is empty), so `preserves` is `True`.
  `algebraic`: both programs end, on every core, at the reference's last stage of the launched arguments.  On the
  kernel's side each region's array is one whole-array function of the arrays the region finds (the row blocks tile the
  arrays; a block product into zeros is a sum over the shared axis; the casts to bf16 are the identity on the extended
  reals), the host stretches between the regions are the reference's own operations on the same arguments, and the one
  difference, the order in which the cutoff is multiplied in, is the commutativity and associativity of the product of
  extended reals. No input need be finite for that law, so the precondition is not opened.
-/
import proofs.«175740_j49838800503616_1_alg».proof.Defs
import proofs.«175740_j49838800503616_1_alg».proof.Proof.Gen.Kernel
import proofs.«175740_j49838800503616_1_alg».proof.Proof.Gen.Kernel.Skeleton
import proofs.«175740_j49838800503616_1_alg».proof.Proof.Gen.Kernel.Launch
import proofs.«175740_j49838800503616_1_alg».proof.Proof.Gen.Kernel.Points
import proofs.«175740_j49838800503616_1_alg».proof.Proof.Gen.Kernel.Frame
import proofs.«175740_j49838800503616_1_alg».proof.Proof.Gen.KernelIdeal
import proofs.«175740_j49838800503616_1_alg».proof.Proof.Gen.KernelIdeal.Skeleton
import proofs.«175740_j49838800503616_1_alg».proof.Proof.Gen.KernelIdeal.Launch
import proofs.«175740_j49838800503616_1_alg».proof.Proof.Gen.KernelIdeal.Points
import proofs.«175740_j49838800503616_1_alg».proof.Proof.Gen.KernelIdeal.Frame
import proofs.«175740_j49838800503616_1_alg».proof.Proof.Gen.ReferenceIdeal
import proofs.«175740_j49838800503616_1_alg».proof.Proof.Gen.ReferenceIdeal.Run
import proofs.«175740_j49838800503616_1_alg».proof.Proof.Gen.ReferenceIdeal.Read
import proofs.«175740_j49838800503616_1_alg».proof.Proof.Gen.Pre_finite_inputs
import proofs.«175740_j49838800503616_1_alg».proof.Proof.KernelRun
import proofs.«175740_j49838800503616_1_alg».proof.Proof.KernelValue
import Idealize.ShloMosaic.Adequacy
import Idealize.ShloMosaic.Init

noncomputable section

namespace Cert.Proof

open Idealize.ShloMosaic Idealize.SL.Sem

/-- Both idealized programs, from memories that agree on the thirteen arguments, end with the result at the reference's
    last stage of the kernel program's arguments: the kernel program by its launch and the walk back from its result
    buffer, the reference by its generated run, its arguments rewritten by the agreement. -/
theorem algebraic : Cert.algebraic_KernelIdeal_ReferenceIdeal := by
  intro m ρ m' ρ' _ hagree
  refine ⟨fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Walk.result m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v55_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
